-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3072 : Shape := ⟨3, ![4, 2048, 3072]⟩
abbrev S6144x3072 : Shape := ⟨2, ![6144, 3072]⟩
abbrev S48x24 : Shape := ⟨2, ![48, 24]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S6144x3072 : S_.BroadcastsInDim S6144x3072 (![] : Fin 0 → Fin S6144x3072.rank)
  reducesTo_S6144x3072_S_d0_1 : S6144x3072.ReducesTo [0, 1] S_
  bcast_S_S48x24 : S_.BroadcastsInDim S48x24 (![] : Fin 0 → Fin S48x24.rank)
  reducesTo_S48x24_S_d0_1 : S48x24.ReducesTo [0, 1] S_

variable [Facts]

def fn {F : FTy → Type} [FloatOps F] (main_arg0 : FVec F S4x2048x3072 .f32) (main_arg1 : FVec F S6144x3072 .f32) (main_arg2 : FVec F S48x24 .f32) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_v4 : FVec F S6144x3072 .f32 := Host.absf main_arg1
  let main_cst_0 : FVec F S_ .f32 := constant S_ .f32 0x7F800000#32
  let main_v5 : FVec F S6144x3072 .f32 := broadcastInDim S6144x3072 ![] bcast_S_S6144x3072 main_cst_0
  let main_v6 : IVec S6144x3072 1 := cmpf .olt main_v4 main_v5
  let main_c_1 : IVec S_ 1 := constantI S_ 1 1#1
  let main_v7 : IVec S_ 1 := (fun x v => Host.reduce IntOp.andi x v reducesTo_S6144x3072_S_d0_1 h_S_) main_v6 main_c_1
  let main_v8 : IVec S_ 1 := andi main_v3 main_v7
  let main_v9 : FVec F S48x24 .f32 := Host.absf main_arg2
  let main_cst_2 : FVec F S_ .f32 := constant S_ .f32 0x7F800000#32
  let main_v10 : FVec F S48x24 .f32 := broadcastInDim S48x24 ![] bcast_S_S48x24 main_cst_2
  let main_v11 : IVec S48x24 1 := cmpf .olt main_v9 main_v10
  let main_c_3 : IVec S_ 1 := constantI S_ 1 1#1
  let main_v12 : IVec S_ 1 := (fun x v => Host.reduce IntOp.andi x v reducesTo_S48x24_S_d0_1 h_S_) main_v11 main_c_3
  let main_v13 : IVec S_ 1 := andi main_v8 main_v12
  main_v13
-- ==== Kernel.lean ====
abbrev S4x2048x3072 : Shape := ⟨3, ![4, 2048, 3072]⟩
abbrev S6144x3072 : Shape := ⟨2, ![6144, 3072]⟩
abbrev S48x24 : Shape := ⟨2, ![48, 24]⟩
abbrev S48x128x24x128 : Shape := ⟨4, ![48, 128, 24, 128]⟩
abbrev S48x1x24x1 : Shape := ⟨4, ![48, 1, 24, 1]⟩
abbrev S8192x3072 : Shape := ⟨2, ![8192, 3072]⟩
abbrev S8192x6144 : Shape := ⟨2, ![8192, 6144]⟩
abbrev S512x3072 : Shape := ⟨2, ![512, 3072]⟩
abbrev S1024x3072 : Shape := ⟨2, ![1024, 3072]⟩
abbrev S512x1024 : Shape := ⟨2, ![512, 1024]⟩
abbrev S3072x1024 : Shape := ⟨2, ![3072, 1024]⟩
abbrev S4x2048x6144 : Shape := ⟨3, ![4, 2048, 6144]⟩

abbrev nBuf : Space → Nat
  | .hbm => 12
  | .vmem => 6
  | .smem => 0
  | _ => 0

abbrev bufTy : (tb : Table) → Fin (tcTables nBuf tb) → BufTy
  | .hbm, ⟨0, _⟩ => ⟨S4x2048x3072, .f32⟩
  | .hbm, ⟨1, _⟩ => ⟨S6144x3072, .f32⟩
  | .hbm, ⟨2, _⟩ => ⟨S48x24, .f32⟩
  | .hbm, ⟨3, _⟩ => ⟨S48x128x24x128, .f32⟩
  | .hbm, ⟨4, _⟩ => ⟨S48x1x24x1, .f32⟩
  | .hbm, ⟨5, _⟩ => ⟨S48x128x24x128, .f32⟩
  | .hbm, ⟨6, _⟩ => ⟨S48x128x24x128, .f32⟩
  | .hbm, ⟨7, _⟩ => ⟨S6144x3072, .f32⟩
  | .hbm, ⟨8, _⟩ => ⟨S6144x3072, .bf16⟩
  | .hbm, ⟨9, _⟩ => ⟨S8192x3072, .f32⟩
  | .hbm, ⟨10, _⟩ => ⟨S8192x6144, .f32⟩
  | .hbm, ⟨11, _⟩ => ⟨S4x2048x6144, .f32⟩
  | .local _ .vmem, ⟨0, _⟩ => ⟨S512x3072, .f32⟩
  | .local _ .vmem, ⟨1, _⟩ => ⟨S512x3072, .f32⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S6144x3072_S48x128x24x128 : S6144x3072.ShapeCasts S48x128x24x128
  bcast_S48x24_S48x1x24x1_0_2 : S48x24.BroadcastsInDim S48x1x24x1 (![0, 2] : Fin 2 → Fin S48x1x24x1.rank)
  bcast_S48x1x24x1_S48x128x24x128_0_1_2_3 : S48x1x24x1.BroadcastsInDim S48x128x24x128 (![0, 1, 2, 3] : Fin 4 → Fin S48x128x24x128.rank)
  shapeCasts_S48x128x24x128_S6144x3072 : S48x128x24x128.ShapeCasts S6144x3072
  bitsLt_bf16_f32 : FTy.bits .bf16 < FTy.bits .f32
  shapeCasts_S4x2048x3072_S8192x3072 : S4x2048x3072.ShapeCasts S8192x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  transposes_S1024x3072_p1_0_S3072x1024 : S1024x3072.Transposes [1, 0] S3072x1024
  inb_S512x1024_S512x1024_0_0 : ∀ a, (![0, 0] : Fin 2 → Nat) a + S512x1024.size a ≤ S512x1024.size a
  h_S512x1024 : 0 < S512x1024.numel
  shapeCasts_S8192x6144_S4x2048x6144 : S8192x6144.ShapeCasts S4x2048x6144
  dot_S512x3072_S3072x1024_S512x1024_1_0_0_1_n_n_wf : DotDims.WF S512x3072 S3072x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S6144x3072.size a
  hwx0_1 : ∀ i : grid0.Coords, EltTy.bits .bf16 = 32 ∨ (Rect.block (s := S6144x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x6144.size a
  hwx0_2 : ∀ i : grid0.Coords, EltTy.bits .f32 = 32 ∨ (Rect.block (s := S8192x6144) S512x1024.size (cc0_transform_2 i) (hinb0_2 i)).WholeWords (EltTy.packing .f32)

variable [Facts₀]

def dot_S512x3072_S3072x1024_S512x1024_1_0_0_1_n_n : DotDims S512x3072 S3072x1024 S512x1024 where
  lhsContracting := [1]
  rhsContracting := [0]
  lhsNonContracting := [0]
  rhsNonContracting := [1]
  lhsBatch := []
  rhsBatch := []
  wf := dot_S512x3072_S3072x1024_S512x1024_1_0_0_1_n_n_wf

abbrev win0_0 : Pipeline.Window sig grid0 :=
  Pipeline.Window.ofSpec (Memref.whole main_v6) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x3072 : Shape := ⟨3, ![4, 2048, 3072]⟩
abbrev S6144x3072 : Shape := ⟨2, ![6144, 3072]⟩
abbrev S48x24 : Shape := ⟨2, ![48, 24]⟩
abbrev S48x128x24x128 : Shape := ⟨4, ![48, 128, 24, 128]⟩
abbrev S48x1x24x1 : Shape := ⟨4, ![48, 1, 24, 1]⟩
abbrev S4x2048x6144 : Shape := ⟨3, ![4, 2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S6144x3072, .f32⟩
  | .hbm, ⟨2, _⟩ => ⟨S48x24, .f32⟩
  | .hbm, ⟨3, _⟩ => ⟨S48x128x24x128, .f32⟩
  | .hbm, ⟨4, _⟩ => ⟨S48x1x24x1, .f32⟩
  | .hbm, ⟨5, _⟩ => ⟨S48x128x24x128, .f32⟩
  | .hbm, ⟨6, _⟩ => ⟨S48x128x24x128, .f32⟩
  | .hbm, ⟨7, _⟩ => ⟨S6144x3072, .f32⟩
  | .hbm, ⟨8, _⟩ => ⟨S4x2048x6144, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S6144x3072_S48x128x24x128 : S6144x3072.ShapeCasts S48x128x24x128
  bcast_S48x24_S48x1x24x1_0_2 : S48x24.BroadcastsInDim S48x1x24x1 (![0, 2] : Fin 2 → Fin S48x1x24x1.rank)
  bcast_S48x1x24x1_S48x128x24x128_0_1_2_3 : S48x1x24x1.BroadcastsInDim S48x128x24x128 (![0, 1, 2, 3] : Fin 4 → Fin S48x128x24x128.rank)
  shapeCasts_S48x128x24x128_S6144x3072 : S48x128x24x128.ShapeCasts S6144x3072
  dot_S4x2048x3072_S6144x3072_S4x2048x6144_2_1_01_0_n_n_wf : DotDims.WF S4x2048x3072 S6144x3072 S4x2048x6144 [2] [1] [0, 1] [0] [] []

variable [Facts₀]

def dot_S4x2048x3072_S6144x3072_S4x2048x6144_2_1_01_0_n_n : DotDims S4x2048x3072 S6144x3072 S4x2048x6144 where
  lhsContracting := [2]
  rhsContracting := [1]
  lhsNonContracting := [0, 1]
  rhsNonContracting := [0]
  lhsBatch := []
  rhsBatch := []
  wf := dot_S4x2048x3072_S6144x3072_S4x2048x6144_2_1_01_0_n_n_wf

class Facts : Prop extends Facts₀ where

variable [Facts]
-- ==== Proof.BlockProduct.lean ====
/-
  One grid point's arithmetic.

  At a point of the 16 × 6 grid the body holds a 512 × 3072 block of the activations and a 1024 × 3072 block of the
  dequantized weight. It narrows the first to bf16, which changes nothing on the extended reals, transposes the
  second to 3072 × 1024, and multiplies the two into a zero accumulator. Read at row `r` and column `c` of the
  512 × 1024 result this is the inner product of row `r` of the first block with row `c` of the second, over the
  3072 positions the two rows share: the transpose only says that the product's column `c` is the weight block's
  row `c`, and adding to zero leaves the sum.
-/
import proofs.«128599_j46617575031313_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Idealize.ShloMosaic Idealize.ShloMosaic.ValueIdx Cert.KernelIdeal Cert.KernelIdeal.Gen

/-! ## Where the product reads its two operands

The product's left operand is indexed (row, position) and its right operand (position, column): the output's row
goes to the left operand's first axis, the output's column to the right operand's second axis, and the summed
position to the remaining axis of each. -/

theorem left_row (j : S512x1024.Idx) (q : dot_S512x3072_S3072x1024_S512x1024_1_0_0_1_n_n.contr.Idx) :
    (dot_S512x3072_S3072x1024_S512x1024_1_0_0_1_n_n.lhsIdx j q 0).val = (j 0).val := by
  unfold DotDims.lhsIdx
  rw [dif_neg (show ¬(0 : Fin S512x3072.rank) ∈ dot_S512x3072_S3072x1024_S512x1024_1_0_0_1_n_n.lhsBatch by decide), dif_pos (show (0 : Fin S512x3072.rank) ∈ dot_S512x3072_S3072x1024_S512x1024_1_0_0_1_n_n.lhsNonContracting by decide)]
  rfl

theorem left_pos (j : S512x1024.Idx) (q : dot_S512x3072_S3072x1024_S512x1024_1_0_0_1_n_n.contr.Idx) :
    (dot_S512x3072_S3072x1024_S512x1024_1_0_0_1_n_n.lhsIdx j q 1).val = (q ⟨0, by decide⟩).val :=
  dot_S512x3072_S3072x1024_S512x1024_1_0_0_1_n_n.lhsIdx_val_of_single rfl j q

theorem right_pos (j : S512x1024.Idx) (q : dot_S512x3072_S3072x1024_S512x1024_1_0_0_1_n_n.contr.Idx) :
    (dot_S512x3072_S3072x1024_S512x1024_1_0_0_1_n_n.rhsIdx j q 0).val = (q ⟨0, by decide⟩).val :=
  dot_S512x3072_S3072x1024_S512x1024_1_0_0_1_n_n.rhsIdx_val_of_single rfl j q

theorem right_col (j : S512x1024.Idx) (q : dot_S512x3072_S3072x1024_S512x1024_1_0_0_1_n_n.contr.Idx) :
    (dot_S512x3072_S3072x1024_S512x1024_1_0_0_1_n_n.rhsIdx j q 1).val = (j 1).val := by
  unfold DotDims.rhsIdx
  rw [dif_neg (show ¬(1 : Fin S3072x1024.rank) ∈ dot_S512x3072_S3072x1024_S512x1024_1_0_0_1_n_n.rhsBatch by decide), dif_pos (show (1 : Fin S3072x1024.rank) ∈ dot_S512x3072_S3072x1024_S512x1024_1_0_0_1_n_n.rhsNonContracting by decide)]
  rfl

/-! ## The block product at an entry -/

/-- Entry (r, c) of what the body stores: the inner product of row `r` of the activation block with row `c` of the
    weight block. -/
theorem pay_apply (x : Vec Ideal S512x3072 .f32) (w : Vec Ideal S1024x3072 .bf16) (r : Fin 512) (c : Fin 1024) :
    k0_pay1 (F := Ideal) x w (ix2 r c) = ∑ k : Fin 3072, x (ix2 r k) * w (ix2 c k) := by
  unfold k0_pay1
  simp only [matmul]
  rw [Ideal.matmul_constant_zero_apply, ← Equiv.sum_comp (contrEquiv1 dot_S512x3072_S3072x1024_S512x1024_1_0_0_1_n_n 3072 rfl rfl).symm]
  refine Finset.sum_congr rfl fun k _ => ?_
  have hk := contrEquiv1_symm_val dot_S512x3072_S3072x1024_S512x1024_1_0_0_1_n_n 3072 rfl rfl k
  -- the left factor: narrowing and the same-shape cast are the identity, so it is the block at (r, k)
  have el : dot_S512x3072_S3072x1024_S512x1024_1_0_0_1_n_n.lhsIdx (ix2 r c) ((contrEquiv1 dot_S512x3072_S3072x1024_S512x1024_1_0_0_1_n_n 3072 rfl rfl).symm k) = ix2 r k := funext fun a => Fin.ext (by
    match a with
    | ⟨0, _⟩ => exact left_row _ _
    | ⟨1, _⟩ => exact (left_pos _ _).trans hk)
  -- the right factor: the transposed block at (k, c) is the block at (c, k)
  have er : dot_S512x3072_S3072x1024_S512x1024_1_0_0_1_n_n.rhsIdx (ix2 r c) ((contrEquiv1 dot_S512x3072_S3072x1024_S512x1024_1_0_0_1_n_n 3072 rfl rfl).symm k) = ix2 k c := funext fun a => Fin.ext (by
    match a with
    | ⟨0, _⟩ => exact (right_pos _ _).trans hk
    | ⟨1, _⟩ => exact right_col _ _)
  rw [el, er, truncf_apply, shapeCast_self, shapeCast_self]
  refine congrArg (x (ix2 r k) * ·) ?_
  exact transpose_apply [1, 0] w transposes_S1024x3072_p1_0_S3072x1024 (ix2 k c) (ix2 c k) (fun b => by
    match b with
    | ⟨0, _⟩ => rfl
    | ⟨1, _⟩ => rfl)

end Cert.KernelIdeal.BlockProduct

end
-- ==== Proof.ProductArray.lean ====
/-
  From the blocks to the whole product.

  The 8192 × 6144 result is written block by block: grid point (i, j) writes rows 512·i … 512·i + 511 and columns
  1024·j … 1024·j + 1023, from rows 512·i … of the activations and rows 1024·j … of the dequantized weight, each block
  taking all 3072 columns of its array. So what a point writes is its own block of ONE array, the one whose entry
  (row, col) is the inner product of row `row` of the activations with row `col` of the weight; the 16 × 6 blocks tile
  the result, hence the result IS that array.
-/
import proofs.«128599_j46617575031313_1_alg».proof.Proof.Gen.KernelIdeal.Frame
import proofs.«128599_j46617575031313_1_alg».proof.Proof.BlockProduct

set_option maxRecDepth 16384

noncomputable section

namespace Cert.KernelIdeal.ProductArray

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Rows against rows: entry (i, n) is the inner product of row `i` of `X` with row `n` of `Wd`. -/
def rowDots (X : S8192x3072.Idx → EReal) (Wd : S6144x3072.Idx → EReal) : S8192x6144.Idx → EReal :=
  fun i => ∑ k : Fin 3072, X (ix2 (i 0 : Fin 8192) k) * Wd (ix2 (i 1 : Fin 6144) k)

/-- The array the region reads as activations (the input flattened to 8192 rows), and the array it reads as weight
    (the dequantized weight), each at its literal shape. -/
abbrev actArr (c : Dev nD) : S8192x3072.Idx → EReal := V m c main_v6
abbrev wtArr (c : Dev nD) : S6144x3072.Idx → EReal := V m c main_v5

theorem zero_offsets : (![0, 0] : Fin 2 → Nat) = fun _ => 0 := funext fun a => by fin_cases a <;> rfl

/-- How the three windows move over the grid: the activation block follows the result's row block, the weight block
    the result's column block, and both start at column 0 of their arrays; the result's block indices stay below
    16 and 6. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 5 :=
  (by decide +kernel : ∀ t : Fin grid0.N, _)

/-- Every (row block, column block) pair is some grid point's. -/
theorem index_onto : ∀ (q0 : Fin 16) (q1 : Fin 6), ∃ t : Fin cfg0.N, win0_2.index t = ![q0.val, q1.val] :=
  (by decide +kernel : ∀ (q0 : Fin 16) (q1 : Fin 6), ∃ t : Fin grid0.N, win0_2.index t = ![q0.val, q1.val])

/-- What point `t` writes back is block `t` of the rows-against-rows array of the two arrays the region reads. -/
theorem flushed_eq (c : Dev nD) (t : Fin cfg0.N) :
    (dats m 0 c).flushed 2 t = ((cfg0.win 2).blk t).view.read (Elt Ideal) (rowDots (actArr m c) (wtArr m c)) := by
  show (cfg0.win 2).cut (grid0.coords t) ((dats m 0 c).after 2 t) = _
  rw [after0_2]
  unfold out0_2
  rw [View.canon_unit_zero zero_offsets]
  simp only [View.ld_unit_zero (S := S512x3072) zero_offsets, View.ld_unit_zero (S := S1024x3072) zero_offsets]
  obtain ⟨e0, e1, e2, e3, e4, e5⟩ := index_facts t
  funext j
  show k0_pay1 (F := Ideal) (iblk m c 0 t) (iblk m c 1 t) j = rowDots (actArr m c) (wtArr m c) (((cfg0.win 2).blk t).view.emb j)
  refine (congrArg (k0_pay1 (F := Ideal) (iblk m c 0 t) (iblk m c 1 t)) (eq_ix2 j)).trans ?_
  refine (BlockProduct.pay_apply (iblk m c 0 t) (iblk m c 1 t) (j 0) (j 1)).trans ?_
  unfold rowDots
  refine Finset.sum_congr rfl fun k _ => ?_
  have h0 : ((cfg0.win 0).blk t).view.emb (ix2 (j 0) k) = ix2 ((((cfg0.win 2).blk t).view.emb j) 0 : Fin 8192) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 3072 + 1 * k.val = k.val; omega
  have h1 : ((cfg0.win 1).blk t).view.emb (ix2 (j 1) k) = ix2 ((((cfg0.win 2).blk t).view.emb j) 1 : Fin 6144) k := by
    funext a; apply Fin.ext
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 3072 + 1 * k.val = k.val; omega
  exact congrArg₂ (fun a b : EReal => a * b) (congrArg (actArr m c) h0) (congrArg (wtArr m c) h1)

/-- An index of the result is in point `t`'s block iff each coordinate is in the block's range on its axis. -/
theorem mem_blk (t : Fin cfg0.N) (i : S8192x6144.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v7).slice (win0_2.rect t)).set ↔ _
  rw [View.set_slice_whole, Rect.mem_set_unit]
  exact Iff.rfl

/-- Every entry of the result lies in the block of the point at (row / 512, column / 1024), which writes back. -/
theorem covered (i : S8192x6144.Idx) :
    ∃ t : Fin cfg0.N, (cfg0.win 2).flush t = true ∧ i ∈ ((cfg0.win 2).blk t).view.set := by
  have hi0 : (i 0).val < 8192 := (i 0).isLt
  have hi1 : (i 1).val < 6144 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the region: rows of the array the region reads as activations against rows of the array
    it reads as weight. -/
theorem product_array (c : Dev nD) :
    (dats m 0 c).arrAt 2 cfg0.N = rowDots (actArr m c) (wtArr m c) :=
  (dats m 0 c).arrAt_eq_of_cover 2 (rowDots (actArr m c) (wtArr m c)) (fun t _ => flushed_eq m c t) covered

end Cert.KernelIdeal.ProductArray

end
-- ==== Proof.KernelRun.lean ====
/-
  The idealized kernel's run, read as a value.

  Before the region the program dequantizes the weight (each 128 × 128 tile of the 6144 × 3072 weight times its own
  scale, computed through a 48 × 128 × 24 × 128 view), narrows it to bf16 — the identity on extended reals — and
  flattens the 4 × 2048 × 3072 input to 8192 rows. The region leaves the 8192 × 6144 array of rows against rows
  (ProductArray), and the one operation after it views that array as 4 × 2048 × 6144. So the result is a fixed
  function of the three argument arrays, and the arguments end as they began.
-/
import proofs.«128599_j46617575031313_1_alg».proof.Proof.ProductArray
import Idealize.ShloMosaic.Lib.StableHlo.Run

set_option maxRecDepth 16384

noncomputable section

namespace Cert.KernelIdeal.KernelRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.ProductArray

variable (m : (ℓ : Loc nD τ sig) → Buf (Elt Ideal) ℓ) (ρ : Dev nD → PrngReg)

/-- The dequantized weight: the weight viewed as 48 × 128 × 24 × 128, each entry times the scale of its tile (the
    48 × 24 scales spread along the two axes of extent 128), viewed again as 6144 × 3072. -/
def dequant (W : S6144x3072.Idx → EReal) (sc : S48x24.Idx → EReal) : S6144x3072.Idx → EReal :=
  shapeCast S6144x3072 (mulf (F := Ideal) (φ := .f32) (shapeCast S48x128x24x128 W shapeCasts_S6144x3072_S48x128x24x128)
    (broadcastInDim S48x128x24x128 ![0, 1, 2, 3] bcast_S48x1x24x1_S48x128x24x128_0_1_2_3
      (broadcastInDim S48x1x24x1 ![0, 2] bcast_S48x24_S48x1x24x1_0_2 sc))) shapeCasts_S48x128x24x128_S6144x3072

/-- The kernel's result as a function of its three arguments: flatten the input to 8192 rows, take rows against
    rows with the dequantized weight, and view the 8192 × 6144 product as 4 × 2048 × 6144. -/
def result (x : S4x2048x3072.Idx → EReal) (W : S6144x3072.Idx → EReal) (sc : S48x24.Idx → EReal) : S4x2048x6144.Idx → EReal :=
  shapeCast S4x2048x6144 (rowDots (shapeCast S8192x3072 x shapeCasts_S4x2048x3072_S8192x3072) (dequant W sc))
    shapeCasts_S8192x6144_S4x2048x6144

/-- The region finds the input flattened to 8192 rows. -/
theorem actArr_eq (c : Dev nD) :
    actArr m c = shapeCast S8192x3072 (m ((c : Thread nD τ).loc main_arg0)) shapeCasts_S4x2048x3072_S8192x3072 := by
  show StableHlo.after hostOps0 (fun b => m (c, b)) (Proc.devRef .tc main_v6) = _
  after_results
  rfl

/-- The region finds the dequantized weight (narrowing to bf16 leaves every extended real as it is). -/
theorem wtArr_eq (c : Dev nD) :
    wtArr m c = dequant (m ((c : Thread nD τ).loc main_arg1)) (m ((c : Thread nD τ).loc main_arg2)) := by
  show StableHlo.after hostOps0 (fun b => m (c, b)) (Proc.devRef .tc main_v5) = _
  after_results
  rfl

/-- After the region the one remaining operation views the product as 4 × 2048 × 6144. -/
theorem tail_eq (c : Dev nD) :
    Pipeline.afterTail₀ cfgs (dats m) 0 (V0 m) [hostOps1] c main_v8
      = result (m ((c : Thread nD τ).loc main_arg0)) (m ((c : Thread nD τ).loc main_arg1)) (m ((c : Thread nD τ).loc main_arg2)) := by
  unfold Pipeline.afterTail₀
  show StableHlo.after hostOps1 _ (Proc.devRef .tc main_v8) = _
  after_results
  rw [Pipeline.withArrays_arr spec0 launch0.win.arr_inj c _ _ 2, product_array m c, actArr_eq, wtArr_eq]
  rfl

/-- Every weakly fair execution of the idealized kernel ends with the result at `result` of the arguments and the
    arguments unchanged. -/
theorem run : θ_run (defs (F := Ideal)) (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KernelRun

end
-- ==== Proof.SameFunction.lean ====
/-
  The reference computes the same function.

  The reference dequantizes the weight by the very same five operations and then contracts the last axis of the
  4 × 2048 × 3072 input against the last axis of the 6144 × 3072 dequantized weight: entry (b, s, n) is the sum over
  k of input (b, s, k) times weight (n, k). The kernel flattens (b, s) to the row 2048·b + s, takes the same sum for
  that row and column n, and un-flattens: row 2048·b + s of the flattened input IS row (b, s) of the input, and entry
  (2048·b + s, n) of the 8192 × 6144 product sits at (b, s, n) of its 4 × 2048 × 6144 view. So the two results agree
  entry by entry, term by term of the sum — no law of arithmetic is used, only where each entry is read.
-/
import proofs.«128599_j46617575031313_1_alg».proof.Proof.KernelRun
import proofs.«128599_j46617575031313_1_alg».proof.Proof.Gen.ReferenceIdeal.Run
import proofs.«128599_j46617575031313_1_alg».proof.Proof.Gen.ReferenceIdeal.Read

noncomputable section

namespace Cert.Proof.SameFunction

open Idealize.ShloMosaic Idealize.ShloMosaic.ValueIdx
open Cert.KernelIdeal.ProductArray Cert.KernelIdeal.KernelRun

/-- The reference's dequantized weight is the kernel's: the same operations of the same two arrays. -/
theorem dequant_eq (W : Cert.KernelIdeal.S6144x3072.Idx → EReal) (sc : Cert.KernelIdeal.S48x24.Idx → EReal) :
    Cert.ReferenceIdeal.Read.val_main_v4 (F := Ideal) W sc = dequant W sc := rfl

/-- The flattened input at (2048·b + s, k) is the input at (b, s, k). -/
theorem flat_input_apply (x : Cert.KernelIdeal.S4x2048x3072.Idx → EReal) (b : Fin 4) (s : Fin 2048) (k : Fin 3072)
    (row : Fin 8192) (hrow : row.val = b.val * 2048 + s.val) :
    shapeCast Cert.KernelIdeal.S8192x3072 x Cert.KernelIdeal.Facts₀.shapeCasts_S4x2048x3072_S8192x3072 (ix2 row k) = x (ix3 b s k) :=
  shapeCast_apply x _ (ix2 row k) (ix3 b s k) (by
    rw [Shape.rowMajor_val_three, Shape.rowMajor_val_two]
    show (b.val * 2048 + s.val) * 3072 + k.val = row.val * 3072 + k.val
    rw [hrow])

/-- The kernel's result is the reference's, as functions of the three arguments. -/
theorem result_eq (x : Cert.KernelIdeal.S4x2048x3072.Idx → EReal) (W : Cert.KernelIdeal.S6144x3072.Idx → EReal)
    (sc : Cert.KernelIdeal.S48x24.Idx → EReal) :
    result x W sc = Cert.ReferenceIdeal.Read.val_main_v5 (F := Ideal) x W sc := by
  funext i
  obtain ⟨b, s, n, rfl⟩ : ∃ (b : Fin 4) (s : Fin 2048) (n : Fin 6144), i = ix3 b s n := ⟨i 0, i 1, i 2, eq_ix3 i⟩
  have hb : b.val < 4 := b.isLt
  have hs : s.val < 2048 := s.isLt
  rw [Cert.ReferenceIdeal.Read.val_main_v5_apply, dequant_eq]
  unfold result
  -- the 4 × 2048 × 6144 view at (b, s, n) is the product at (2048·b + s, n)
  refine (shapeCast_apply _ Cert.KernelIdeal.Facts₀.shapeCasts_S8192x6144_S4x2048x6144 (ix3 b s n)
    (ix2 (⟨b.val * 2048 + s.val, by omega⟩ : Fin 8192) n) (by
      rw [Shape.rowMajor_val_two, Shape.rowMajor_val_three]
      rfl)).trans ?_
  unfold rowDots
  refine Finset.sum_congr rfl fun k _ => ?_
  refine congrArg₂ (fun a c : EReal => a * c) ?_ ?_
  · refine (flat_input_apply x b s k _ rfl).trans (congrArg x ?_)
    funext a; match a with | ⟨0, _⟩ => rfl | ⟨1, _⟩ => rfl | ⟨2, _⟩ => rfl
  · refine congrArg (dequant W sc) ?_
    funext a; match a with | ⟨0, _⟩ => rfl | ⟨1, _⟩ => rfl

end Cert.Proof.SameFunction

end
-- ==== Proof.lean ====
/-
  A linear layer whose weight is stored with one scale per 128 × 128 tile: out[b, s, n] = Σ_k x[b, s, k] · Wd[n, k],
  where Wd[n, k] = W[n, k] · scale[n / 128, k / 128], for x of shape 4 × 2048 × 3072, W of shape 6144 × 3072 and
  48 × 24 scales.

  Both programs form Wd by the same operations (view W as 48 × 128 × 24 × 128, multiply by the scales spread over the
  two axes of extent 128, view back). The reference then contracts k in one product. The kernel flattens (b, s) to
  8192 rows, narrows Wd to bf16 — which leaves an extended real as it is — and covers the 8192 × 6144 product by a
  16 × 6 grid of 512 × 1024 blocks, each the product of a 512 × 3072 block of rows of x with the transpose of a
  1024 × 3072 block of rows of Wd, all 3072 positions summed inside the one block, added to zero. Entry (r, c) of a
  block is therefore the full inner product of its row of x with its row of Wd (BlockProduct); the blocks tile the
  product, so the product is rows against rows (ProductArray); before and after it the kernel only re-views arrays
  (KernelRun); and entry (2048·b + s, n) of rows against rows is the reference's sum for (b, s, n), term by term
  (SameFunction). No law of extended-real arithmetic is needed beyond 0 + a = a, so the finiteness of the inputs is
  never used. The kernel is its own idealization (the ideal pass rewrote nothing), so that conjunct is `True`.
-/
import proofs.«128599_j46617575031313_1_alg».proof.Defs
import proofs.«128599_j46617575031313_1_alg».proof.Proof.Gen.Kernel
import proofs.«128599_j46617575031313_1_alg».proof.Proof.Gen.Kernel.Skeleton
import proofs.«128599_j46617575031313_1_alg».proof.Proof.Gen.Kernel.Launch
import proofs.«128599_j46617575031313_1_alg».proof.Proof.Gen.Kernel.Points
import proofs.«128599_j46617575031313_1_alg».proof.Proof.Gen.Kernel.Frame
import proofs.«128599_j46617575031313_1_alg».proof.Proof.Gen.KernelIdeal
import proofs.«128599_j46617575031313_1_alg».proof.Proof.Gen.KernelIdeal.Skeleton
import proofs.«128599_j46617575031313_1_alg».proof.Proof.Gen.KernelIdeal.Launch
import proofs.«128599_j46617575031313_1_alg».proof.Proof.Gen.KernelIdeal.Points
import proofs.«128599_j46617575031313_1_alg».proof.Proof.Gen.KernelIdeal.Frame
import proofs.«128599_j46617575031313_1_alg».proof.Proof.Gen.ReferenceIdeal
import proofs.«128599_j46617575031313_1_alg».proof.Proof.Gen.ReferenceIdeal.Run
import proofs.«128599_j46617575031313_1_alg».proof.Proof.Gen.ReferenceIdeal.Read
import proofs.«128599_j46617575031313_1_alg».proof.Proof.Gen.Pre_finite_inputs
import proofs.«128599_j46617575031313_1_alg».proof.Proof.KernelRun
import proofs.«128599_j46617575031313_1_alg».proof.Proof.SameFunction
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is six host operations; its run with the result's value forgotten is its frame. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in passing to the extended reals. -/
theorem preserves : Cert.preserves_Kernel_KernelIdeal := trivial

/-- From memories that agree on the three arguments, both programs end with the same 4 × 2048 × 6144 array: the
    kernel's rows-against-rows product, re-viewed, of the arguments. -/
theorem algebraic : Cert.algebraic_KernelIdeal_ReferenceIdeal := by
  intro m ρ m' ρ' _ hagree
  refine ⟨fun c => Cert.KernelIdeal.KernelRun.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.Proof.SameFunction.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
